-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S16x128 : Shape := ⟨2, ![16, 128]⟩
abbrev S128 : Shape := ⟨1, ![128]⟩
abbrev S128x128 : Shape := ⟨2, ![128, 128]⟩
abbrev S2x640000 : Shape := ⟨2, ![2, 640000]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x16 .f32) (main_arg1 : FVec F S16x128 .f32) (main_arg2 : FVec F S128 .f32) (main_arg3 : FVec F S128x128 .f32) (main_arg4 : FVec F S128 .f32) (main_arg5 : IVec S2x640000 32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x16 : Shape := ⟨2, ![100000, 16]⟩
abbrev S16x128 : Shape := ⟨2, ![16, 128]⟩
abbrev S128 : Shape := ⟨1, ![128]⟩
abbrev S128x128 : Shape := ⟨2, ![128, 128]⟩
abbrev S2x640000 : Shape := ⟨2, ![2, 640000]⟩
abbrev S1x640000 : Shape := ⟨2, ![1, 640000]⟩
abbrev S640000 : Shape := ⟨1, ![640000]⟩
abbrev S100000 : Shape := ⟨1, ![100000]⟩
abbrev S740000 : Shape := ⟨1, ![740000]⟩
abbrev S_ : Shape := ⟨0, ![]⟩
abbrev S740000x1 : Shape := ⟨2, ![740000, 1]⟩
abbrev S100000x128 : Shape := ⟨2, ![100000, 128]⟩
abbrev S5000x16 : Shape := ⟨2, ![5000, 16]⟩
abbrev S5000x128 : Shape := ⟨2, ![5000, 128]⟩
abbrev S740000x128 : Shape := ⟨2, ![740000, 128]⟩
abbrev S1x128 : Shape := ⟨2, ![1, 128]⟩

abbrev nBuf : Space → Nat
  | .hbm => 89
  | .vmem => 10
  | .smem => 0
  | _ => 0

abbrev bufTy : (tb : Table) → Fin (tcTables nBuf tb) → BufTy
  | .hbm, ⟨0, _⟩ => ⟨S100000x16, .f32⟩
  | .hbm, ⟨1, _⟩ => ⟨S16x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x640000, .i32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S100000, .i32⟩
  | .hbm, ⟨11, _⟩ => ⟨S740000, .i32⟩
  | .hbm, ⟨12, _⟩ => ⟨S740000, .i32⟩
  | .hbm, ⟨13, _⟩ => ⟨S_, .f32⟩
  | .hbm, ⟨14, _⟩ => ⟨S740000, .f32⟩
  | .hbm, ⟨15, _⟩ => ⟨S_, .f32⟩
  | .hbm, ⟨16, _⟩ => ⟨S100000, .f32⟩
  | .hbm, ⟨17, _⟩ => ⟨S740000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S740000, .i32⟩
  | .hbm, ⟨29, _⟩ => ⟨S740000, .i1⟩
  | .hbm, ⟨30, _⟩ => ⟨S_, .i32⟩
  | .hbm, ⟨31, _⟩ => ⟨S740000, .i32⟩
  | .hbm, ⟨32, _⟩ => ⟨S740000, .i32⟩
  | .hbm, ⟨33, _⟩ => ⟨S740000, .i32⟩
  | .hbm, ⟨34, _⟩ => ⟨S740000x1, .i32⟩
  | .hbm, ⟨35, _⟩ => ⟨S740000, .f32⟩
  | .hbm, ⟨36, _⟩ => ⟨S_, .i32⟩
  | .hbm, ⟨37, _⟩ => ⟨S740000, .i32⟩
  | .hbm, ⟨38, _⟩ => ⟨S740000, .i1⟩
  | .hbm, ⟨39, _⟩ => ⟨S_, .i32⟩
  | .hbm, ⟨40, _⟩ => ⟨S740000, .i32⟩
  | .hbm, ⟨41, _⟩ => ⟨S740000, .i32⟩
  | .hbm, ⟨42, _⟩ => ⟨S740000, .i32⟩
  | .hbm, ⟨43, _⟩ => ⟨S740000x1, .i32⟩
  | .hbm, ⟨44, _⟩ => ⟨S740000, .f32⟩
  | .hbm, ⟨45, _⟩ => ⟨S740000, .f32⟩
  | .hbm, ⟨46, _⟩ => ⟨S100000x128, .f32⟩
  | .hbm, ⟨47, _⟩ => ⟨S_, .i32⟩
  | .hbm, ⟨48, _⟩ => ⟨S740000, .i32⟩
  | .hbm, ⟨49, _⟩ => ⟨S740000, .i1⟩
  | .hbm, ⟨50, _⟩ => ⟨S_, .i32⟩
  | .hbm, ⟨51, _⟩ => ⟨S740000, .i32⟩
  | .hbm, ⟨52, _⟩ => ⟨S740000, .i32⟩
  | .hbm, ⟨53, _⟩ => ⟨S740000, .i32⟩
  | .hbm, ⟨54, _⟩ => ⟨S740000x1, .i32⟩
  | .hbm, ⟨55, _⟩ => ⟨S740000x128, .f32⟩
  | .hbm, ⟨56, _⟩ => ⟨S740000x1, .f32⟩
  | .hbm, ⟨57, _⟩ => ⟨S740000x128, .f32⟩
  | .hbm, ⟨58, _⟩ => ⟨S740000x128, .f32⟩
  | .hbm, ⟨59, _⟩ => ⟨S_, .f32⟩
  | .hbm, ⟨60, _⟩ => ⟨S100000x128, .f32⟩
  | .hbm, ⟨61, _⟩ => ⟨S740000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S740000, .i32⟩
  | .hbm, ⟨72, _⟩ => ⟨S740000, .i1⟩
  | .hbm, ⟨73, _⟩ => ⟨S_, .i32⟩
  | .hbm, ⟨74, _⟩ => ⟨S740000, .i32⟩
  | .hbm, ⟨75, _⟩ => ⟨S740000, .i32⟩
  | .hbm, ⟨76, _⟩ => ⟨S740000, .i32⟩
  | .hbm, ⟨77, _⟩ => ⟨S740000x1, .i32⟩
  | .hbm, ⟨78, _⟩ => ⟨S740000x128, .f32⟩
  | .hbm, ⟨79, _⟩ => ⟨S740000x1, .f32⟩
  | .hbm, ⟨80, _⟩ => ⟨S740000x128, .f32⟩
  | .hbm, ⟨81, _⟩ => ⟨S740000x128, .f32⟩
  | .hbm, ⟨82, _⟩ => ⟨S_, .f32⟩
  | .hbm, ⟨83, _⟩ => ⟨S100000x128, .f32⟩
  | .hbm, ⟨84, _⟩ => ⟨S740000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S100000_S740000_d0 : Shape.Concatenates [S640000, S100000] S740000 0
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S5000x128_S5000x128_0_0 : ∀ a, (![0, 0] : Fin 2 → Nat) a + S5000x128.size a ≤ S5000x128.size a
  h_S5000x128 : 0 < S5000x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S5000x16_S16x128_S5000x128_1_0_0_1_n_n_wf : DotDims.WF S5000x16 S16x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x16 : Shape := ⟨2, ![100000, 16]⟩
abbrev S16x128 : Shape := ⟨2, ![16, 128]⟩
abbrev S128 : Shape := ⟨1, ![128]⟩
abbrev S128x128 : Shape := ⟨2, ![128, 128]⟩
abbrev S2x640000 : Shape := ⟨2, ![2, 640000]⟩
abbrev S1x640000 : Shape := ⟨2, ![1, 640000]⟩
abbrev S640000 : Shape := ⟨1, ![640000]⟩
abbrev S100000x128 : Shape := ⟨2, ![100000, 128]⟩
abbrev S100000 : Shape := ⟨1, ![100000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S16x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x640000, .i32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S100000x128, .f32⟩
  | .hbm, ⟨11, _⟩ => ⟨S100000, .i32⟩
  | .hbm, ⟨12, _⟩ => ⟨S740000, .i32⟩
  | .hbm, ⟨13, _⟩ => ⟨S740000, .i32⟩
  | .hbm, ⟨14, _⟩ => ⟨S_, .f32⟩
  | .hbm, ⟨15, _⟩ => ⟨S740000, .f32⟩
  | .hbm, ⟨16, _⟩ => ⟨S_, .f32⟩
  | .hbm, ⟨17, _⟩ => ⟨S100000, .f32⟩
  | .hbm, ⟨18, _⟩ => ⟨S740000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S740000, .i32⟩
  | .hbm, ⟨30, _⟩ => ⟨S740000, .i1⟩
  | .hbm, ⟨31, _⟩ => ⟨S_, .i32⟩
  | .hbm, ⟨32, _⟩ => ⟨S740000, .i32⟩
  | .hbm, ⟨33, _⟩ => ⟨S740000, .i32⟩
  | .hbm, ⟨34, _⟩ => ⟨S740000, .i32⟩
  | .hbm, ⟨35, _⟩ => ⟨S740000x1, .i32⟩
  | .hbm, ⟨36, _⟩ => ⟨S740000, .f32⟩
  | .hbm, ⟨37, _⟩ => ⟨S_, .i32⟩
  | .hbm, ⟨38, _⟩ => ⟨S740000, .i32⟩
  | .hbm, ⟨39, _⟩ => ⟨S740000, .i1⟩
  | .hbm, ⟨40, _⟩ => ⟨S_, .i32⟩
  | .hbm, ⟨41, _⟩ => ⟨S740000, .i32⟩
  | .hbm, ⟨42, _⟩ => ⟨S740000, .i32⟩
  | .hbm, ⟨43, _⟩ => ⟨S740000, .i32⟩
  | .hbm, ⟨44, _⟩ => ⟨S740000x1, .i32⟩
  | .hbm, ⟨45, _⟩ => ⟨S740000, .f32⟩
  | .hbm, ⟨46, _⟩ => ⟨S740000, .f32⟩
  | .hbm, ⟨47, _⟩ => ⟨S_, .i32⟩
  | .hbm, ⟨48, _⟩ => ⟨S740000, .i32⟩
  | .hbm, ⟨49, _⟩ => ⟨S740000, .i1⟩
  | .hbm, ⟨50, _⟩ => ⟨S_, .i32⟩
  | .hbm, ⟨51, _⟩ => ⟨S740000, .i32⟩
  | .hbm, ⟨52, _⟩ => ⟨S740000, .i32⟩
  | .hbm, ⟨53, _⟩ => ⟨S740000, .i32⟩
  | .hbm, ⟨54, _⟩ => ⟨S740000x1, .i32⟩
  | .hbm, ⟨55, _⟩ => ⟨S740000x128, .f32⟩
  | .hbm, ⟨56, _⟩ => ⟨S740000x1, .f32⟩
  | .hbm, ⟨57, _⟩ => ⟨S740000x128, .f32⟩
  | .hbm, ⟨58, _⟩ => ⟨S740000x128, .f32⟩
  | .hbm, ⟨59, _⟩ => ⟨S_, .f32⟩
  | .hbm, ⟨60, _⟩ => ⟨S100000x128, .f32⟩
  | .hbm, ⟨61, _⟩ => ⟨S740000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000, .i32⟩
  | .hbm, ⟨71, _⟩ => ⟨S740000, .i32⟩
  | .hbm, ⟨72, _⟩ => ⟨S740000, .i32⟩
  | .hbm, ⟨73, _⟩ => ⟨S_, .f32⟩
  | .hbm, ⟨74, _⟩ => ⟨S740000, .f32⟩
  | .hbm, ⟨75, _⟩ => ⟨S_, .f32⟩
  | .hbm, ⟨76, _⟩ => ⟨S100000, .f32⟩
  | .hbm, ⟨77, _⟩ => ⟨S740000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S740000, .i32⟩
  | .hbm, ⟨89, _⟩ => ⟨S740000, .i1⟩
  | .hbm, ⟨90, _⟩ => ⟨S_, .i32⟩
  | .hbm, ⟨91, _⟩ => ⟨S740000, .i32⟩
  | .hbm, ⟨92, _⟩ => ⟨S740000, .i32⟩
  | .hbm, ⟨93, _⟩ => ⟨S740000, .i32⟩
  | .hbm, ⟨94, _⟩ => ⟨S740000x1, .i32⟩
  | .hbm, ⟨95, _⟩ => ⟨S740000, .f32⟩
  | .hbm, ⟨96, _⟩ => ⟨S_, .i32⟩
  | .hbm, ⟨97, _⟩ => ⟨S740000, .i32⟩
  | .hbm, ⟨98, _⟩ => ⟨S740000, .i1⟩
  | .hbm, ⟨99, _⟩ => ⟨S_, .i32⟩
  | .hbm, ⟨100, _⟩ => ⟨S740000, .i32⟩
  | .hbm, ⟨101, _⟩ => ⟨S740000, .i32⟩
  | .hbm, ⟨102, _⟩ => ⟨S740000, .i32⟩
  | .hbm, ⟨103, _⟩ => ⟨S740000x1, .i32⟩
  | .hbm, ⟨104, _⟩ => ⟨S740000, .f32⟩
  | .hbm, ⟨105, _⟩ => ⟨S740000, .f32⟩
  | .hbm, ⟨106, _⟩ => ⟨S_, .i32⟩
  | .hbm, ⟨107, _⟩ => ⟨S740000, .i32⟩
  | .hbm, ⟨108, _⟩ => ⟨S740000, .i1⟩
  | .hbm, ⟨109, _⟩ => ⟨S_, .i32⟩
  | .hbm, ⟨110, _⟩ => ⟨S740000, .i32⟩
  | .hbm, ⟨111, _⟩ => ⟨S740000, .i32⟩
  | .hbm, ⟨112, _⟩ => ⟨S740000, .i32⟩
  | .hbm, ⟨113, _⟩ => ⟨S740000x1, .i32⟩
  | .hbm, ⟨114, _⟩ => ⟨S740000x128, .f32⟩
  | .hbm, ⟨115, _⟩ => ⟨S740000x1, .f32⟩
  | .hbm, ⟨116, _⟩ => ⟨S740000x128, .f32⟩
  | .hbm, ⟨117, _⟩ => ⟨S740000x128, .f32⟩
  | .hbm, ⟨118, _⟩ => ⟨S_, .f32⟩
  | .hbm, ⟨119, _⟩ => ⟨S100000x128, .f32⟩
  | .hbm, ⟨120, _⟩ => ⟨S740000x1, .i32⟩
  | .hbm, ⟨121, _⟩ => ⟨S100000x128, .f32⟩
  | .hbm, ⟨122, _⟩ => ⟨S1x128, .f32⟩
  | .hbm, ⟨123, _⟩ => ⟨S100000x128, .f32⟩
  | .hbm, ⟨124, _⟩ => ⟨S100000x128, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S100000_S740000_d0 : Shape.Concatenates [S640000, S100000] S740000 0
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x16_S16x128_S100000x128_1_0_0_1_n_n_wf : DotDims.WF S100000x16 S16x128 S100000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x128_S100000x128_1_0_0_1_n_n_wf : DotDims.WF S100000x128 S128x128 S100000x128 [1] [0] [0] [1] [] []

variable [Facts₀]

def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.GcnSpec.lean ====
/-
  The two-layer graph convolution both programs compute, as ONE function of the argument arrays, built from
  named stages. With e the [2, 640000] edge array, n = 100000 nodes and one self-loop per node appended:

    dst e, src e : the 740000 destination and source node numbers (the edge array's rows 0 and 1, then 0 … n-1);
    wrapIdx v    : a node number read the way jnp indexing reads it (a negative one has n added), as a column;
    deg e        : how many of the 740000 sources name each node (a scatter-add of ones into zeros);
    dis e        : deg^(-1/2) where deg > 0, else 0;
    norm e       : dis at the destination times dis at the source, per edge;
    agg h e b    : for every node the sum over the edges arriving there of norm · (row of h at the edge's source), plus b;
    layers       : agg (relu (agg (x · W1) e b1) · W2) e b2, the two products being plain matrix products.

  Every stage is spelt with the reference program's own operations and records, so that the reference's composed
  term IS this function by unfolding, and nothing here is ever opened by the comparison of the two programs: they
  differ only in how the two matrix products are computed.
-/
import proofs.«163940_j42442866819845_1_alg».proof.Proof.Gen.ReferenceIdeal

noncomputable section

namespace Cert.Gcn

open Cert.ReferenceIdeal Cert.ReferenceIdeal.Gen Idealize.ShloMosaic Idealize.ShloMosaic.TcCoe Idealize.SL.Sem

variable {F : FTy → Type} [FloatOps F]

/-- The destination node of each of the 740000 edges: row 0 of the edge array, then the self-loops 0 … n-1. -/
def dst (e : (⟨S2x640000, .i32⟩ : BufTy).Contents (Elt F)) : (⟨S740000, .i32⟩ : BufTy).Contents (Elt F) :=
  concatenate S740000 0 [⟨S640000, (shapeCast _ (extractStridedSlice S1x640000 ![0, 0] e slices_S2x640000_S1x640000_0_0) shapeCasts_S1x640000_S640000)⟩, ⟨S100000, (iotaInDim S100000 32 0)⟩] concatenates_S640000_S100000_S740000_d0

/-- The source node of each edge: row 1 of the edge array, then the self-loops. -/
def src (e : (⟨S2x640000, .i32⟩ : BufTy).Contents (Elt F)) : (⟨S740000, .i32⟩ : BufTy).Contents (Elt F) :=
  concatenate S740000 0 [⟨S640000, (shapeCast _ (extractStridedSlice S1x640000 ![1, 0] e slices_S2x640000_S1x640000_1_0) shapeCasts_S1x640000_S640000)⟩, ⟨S100000, (iotaInDim S100000 32 0)⟩] concatenates_S640000_S100000_S740000_d0

/-- A vector of node numbers as the column of indices a gather takes: a negative number has n = 100000 added. -/
def wrapIdx (v : (⟨S740000, .i32⟩ : BufTy).Contents (Elt F)) : (⟨S740000x1, .i32⟩ : BufTy).Contents (Elt F) :=
  broadcastInDim S740000x1 ![0] bcast_S740000_S740000x1_0 (select (cmpi .slt v (broadcastInDim S740000 ![] bcast_S_S740000 (constantI S_ 32 0#32))) (addi v (broadcastInDim S740000 ![] bcast_S_S740000 (constantI S_ 32 100000#32))) v)

/-- The degree of each node counted over the sources: ones scattered and added into zeros. -/
def deg (e : (⟨S2x640000, .i32⟩ : BufTy).Contents (Elt F)) : (⟨S100000, .f32⟩ : BufTy).Contents (Elt F) :=
  Host.scatterAdd scatter_S100000_S740000x1_S740000_n_0_0_1 (broadcastInDim S100000 ![] bcast_S_S100000 (constant S_ .f32 0x00000000#32)) (broadcastInDim S740000x1 ![0] bcast_S740000_S740000x1_0 (src e)) (broadcastInDim S740000 ![] bcast_S_S740000 (constant S_ .f32 0x3F800000#32))

/-- deg^(-1/2) where the degree is positive, zero elsewhere. -/
def dis (e : (⟨S2x640000, .i32⟩ : BufTy).Contents (Elt F)) : (⟨S100000, .f32⟩ : BufTy).Contents (Elt F) :=
  select (cmpf (F := F) .ogt (deg e) (broadcastInDim S100000 ![] bcast_S_S100000 (constant S_ .f32 0x00000000#32))) (Host.rsqrt (deg e)) (broadcastInDim S100000 ![] bcast_S_S100000 (id (constant S_ .f32 0x00000000#32)))

/-- The symmetric normalisation of each edge: dis at its destination times dis at its source. -/
def norm (e : (⟨S2x640000, .i32⟩ : BufTy).Contents (Elt F)) : (⟨S740000, .f32⟩ : BufTy).Contents (Elt F) :=
  mulf (Host.gather gather_S100000_S740000x1_S740000_n_0_n_n_0_1_1 (dis e) (wrapIdx (dst e))) (Host.gather gather_S100000_S740000x1_S740000_n_0_n_n_0_1_1 (dis e) (wrapIdx (src e)))

/-- One aggregation: the rows of `h` gathered at the edges' sources, scaled by the edges' normalisation, added into
    the rows of their destinations, and the bias added to every row. -/
def agg (h : (⟨S100000x128, .f32⟩ : BufTy).Contents (Elt F)) (e : (⟨S2x640000, .i32⟩ : BufTy).Contents (Elt F))
    (b : (⟨S128, .f32⟩ : BufTy).Contents (Elt F)) : (⟨S100000x128, .f32⟩ : BufTy).Contents (Elt F) :=
  addf (Host.scatterAdd scatter_S100000x128_S740000x1_S740000x128_1_0_0_1 (broadcastInDim S100000x128 ![] bcast_S_S100000x128 (constant S_ .f32 0x00000000#32)) (broadcastInDim S740000x1 ![0] bcast_S740000_S740000x1_0 (dst e)) (mulf (Host.gather gather_S100000x128_S740000x1_S740000x128_1_0_n_n_0_1_1128 h (wrapIdx (src e))) (broadcastInDim S740000x128 ![0, 1] bcast_S740000x1_S740000x128_0_1 (broadcastInDim S740000x1 ![0] bcast_S740000_S740000x1_0 (norm e))))) (broadcastInDim S100000x128 ![0, 1] bcast_S1x128_S100000x128_0_1 (broadcastInDim S1x128 ![1] bcast_S128_S1x128_1 b))

/-- The rectifier: the maximum with zero, entry by entry. -/
def relu (h : (⟨S100000x128, .f32⟩ : BufTy).Contents (Elt F)) : (⟨S100000x128, .f32⟩ : BufTy).Contents (Elt F) :=
  maximumf h (broadcastInDim S100000x128 ![] bcast_S_S100000x128 (constant S_ .f32 0x00000000#32))

/-- The first layer's product x · W1, a [100000, 16] by [16, 128] matrix product. -/
def dense1 (x : (⟨S100000x16, .f32⟩ : BufTy).Contents (Elt F)) (w : (⟨S16x128, .f32⟩ : BufTy).Contents (Elt F)) :
    (⟨S100000x128, .f32⟩ : BufTy).Contents (Elt F) :=
  Host.dotGeneral dot_S100000x16_S16x128_S100000x128_1_0_0_1_n_n none x w

/-- The second layer's product h · W2, a [100000, 128] by [128, 128] matrix product. -/
def dense2 (h : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none h w

/-- The whole network: agg (relu (agg (x · W1) e b1) · W2) e b2. -/
def layers (x : (⟨S100000x16, .f32⟩ : BufTy).Contents (Elt F)) (w1 : (⟨S16x128, .f32⟩ : BufTy).Contents (Elt F))
    (b1 : (⟨S128, .f32⟩ : BufTy).Contents (Elt F)) (w2 : (⟨S128x128, .f32⟩ : BufTy).Contents (Elt F))
    (b2 : (⟨S128, .f32⟩ : BufTy).Contents (Elt F)) (e : (⟨S2x640000, .i32⟩ : BufTy).Contents (Elt F)) :
    (⟨S100000x128, .f32⟩ : BufTy).Contents (Elt F) :=
  agg (dense2 (relu (agg (dense1 x w1) e b1)) w2) e b2

end Cert.Gcn

end
-- ==== Proof.RefIsSpec.lean ====
/-
  The reference program's result is the specification: its composed term, read off its run, is `Gcn.layers` of the
  argument arrays, stage for stage (the reference computes the edges' normalisation once per layer; both copies are
  the same function `Gcn.norm` of the edge array).
-/
import proofs.«163940_j42442866819845_1_alg».proof.Proof.RefRun
import proofs.«163940_j42442866819845_1_alg».proof.Proof.GcnSpec

noncomputable section

namespace Cert.ReferenceIdeal.RefSpec

open Cert.ReferenceIdeal Cert.ReferenceIdeal.Gen Idealize.ShloMosaic Idealize.ShloMosaic.TcCoe Idealize.SL.Sem

variable {F : FTy → Type} [FloatOps F]

set_option maxRecDepth 16384 in
/-- The run's result term is the two layers of the argument arrays. -/
theorem res_eq (m : (ℓ : Loc nD τ sig) → Buf (Elt F) ℓ) (c : Dev nD) :
    Cert.ReferenceIdeal.RunP.res_main_v90 m c
      = Cert.Gcn.layers (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunP.res_main_v90 Cert.Gcn.layers Cert.Gcn.agg Cert.Gcn.relu Cert.Gcn.dense1 Cert.Gcn.dense2
    Cert.Gcn.norm Cert.Gcn.dis Cert.Gcn.deg Cert.Gcn.wrapIdx Cert.Gcn.dst Cert.Gcn.src
  rfl

end Cert.ReferenceIdeal.RefSpec

end
-- ==== Proof.KernelChain.lean ====
/-
  The kernel program's host side with each pallas_call replaced by ONE host operation writing the whole matrix
  product into the call's result buffer. Folded from the launch contents, the result buffer ends at the two layers
  `Gcn.layers` of the argument arrays: the kernel program applies, around its two products, exactly the operations the
  reference applies (it computes the edges' normalisation once and uses it in both layers; the reference computes the
  same function of the edge array twice). Stated for any float family: nothing here opens an operation.
-/
import proofs.«163940_j42442866819845_1_alg».proof.Proof.Gen.KernelIdeal.Launch
import proofs.«163940_j42442866819845_1_alg».proof.Proof.GcnSpec
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]

/-- The first pallas_call as a host operation: the whole product of its two operand arrays into its result buffer. -/
abbrev op30 : HloOp τ sig (Elt F) :=
  binary main_arg0 main_arg1 main_v30 ((fun l r => Cert.Gcn.dense1 (F := F) l r) : (⟨S100000x16, .f32⟩ : BufTy).Contents (Elt F) → (⟨S16x128, .f32⟩ : BufTy).Contents (Elt F) → (⟨S100000x128, .f32⟩ : BufTy).Contents (Elt F))

/-- The second pallas_call as a host operation. -/
abbrev op48 : HloOp τ sig (Elt F) :=
  binary main_v47 main_arg3 main_v48 ((fun l r => Cert.Gcn.dense2 (F := F) l r) : (⟨S100000x128, .f32⟩ : BufTy).Contents (Elt F) → (⟨S128x128, .f32⟩ : BufTy).Contents (Elt F) → (⟨S100000x128, .f32⟩ : BufTy).Contents (Elt F))

/-- The buffer contents after @main's host stretches with the two calls stood in by `op30` and `op48`, from `V0`. -/
def chain (V0 : Valuation τ sig (Elt F)) : Valuation τ sig (Elt F) :=
  after hostOps2 (after [op48] (after hostOps1_1 (after hostOps1 (after [op30]
    (after hostOps0_2 (after hostOps0_1 (after hostOps0 V0)))))))

/-- Reads what is left of a fold at a reference, one operation at a time, by rewriting: the operands of a
    concatenate sit in a list of dependent pairs, which a single simplification pass does not enter. -/
macro "finish_operands" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

set_option maxRecDepth 16384 in
set_option maxHeartbeats 40000000 in
/-- The result buffer after the chain is the two layers of the argument arrays. -/
theorem chain_result (V0 : Valuation τ sig (Elt F)) :
    chain V0 (Proc.devRef .tc main_v64)
      = Cert.Gcn.layers (F := F) (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5)) := by
  unfold chain
  simp only [hostOps0, hostOps0_1, hostOps0_2, hostOps1, hostOps1_1, hostOps2, op30, op48]
  after_results_simp
  finish_operands
  unfold Cert.Gcn.layers Cert.Gcn.agg Cert.Gcn.relu Cert.Gcn.norm Cert.Gcn.dis Cert.Gcn.deg Cert.Gcn.wrapIdx Cert.Gcn.dst Cert.Gcn.src
  rfl

end Cert.KernelIdeal.Chain

end
-- ==== Proof.LibRealFactor.lean ====
/-
  Two general facts about the extended reals as the exact instance computes with them.

  1. A real factor distributes over the sum of ANY extended real and a real: r * (w + t) = r * w + r * t.  (Over the
     extended reals multiplication does not distribute over addition in general; here the one possibly infinite
     summand w keeps its sign under the real factor r, or is annihilated by r = 0, and the real summand cannot cancel
     it.)  Termwise under a finite sum this splits sum_k x_k * (w_k + a_k) into sum_k x_k * w_k + sum_k x_k * a_k when
     the x_k and a_k are real.
  2. A plain matrix product — an N x D matrix times a D x H matrix, the first one's columns contracted with the second
     one's rows — read at entry (i, j) is the sum over k of l(i, k) * r(k, j), both for the matrix unit's product
     accumulated into the zero matrix and for the host's product.
-/
import Idealize.ShloMosaic.PureOps.Ideal
import Idealize.ShloMosaic.PureOps.Ideal.Laws
import Idealize.ShloMosaic.Lib.ValueIdx

noncomputable section

namespace Cert.Fold

open Idealize.ShloMosaic Idealize.ShloMosaic.ValueIdx

/-! ## The law -/

/-- A real factor distributes over the sum of an extended real and a real. -/
theorem coe_mul_add_coe (r t : ℝ) (w : EReal) :
    (r : EReal) * (w + (t : EReal)) = (r : EReal) * w + (r : EReal) * (t : EReal) := by
  induction w using EReal.rec with
  | bot =>
    rw [EReal.bot_add]
    rcases lt_trichotomy r 0 with h | h | h
    · rw [EReal.coe_mul_bot_of_neg h, ← EReal.coe_mul, EReal.top_add_coe]
    · subst h; simp
    · rw [EReal.coe_mul_bot_of_pos h, EReal.bot_add]
  | coe w =>
    rw [← EReal.coe_add, ← EReal.coe_mul, ← EReal.coe_mul, ← EReal.coe_mul, ← EReal.coe_add, mul_add]
  | top =>
    rw [EReal.top_add_coe]
    rcases lt_trichotomy r 0 with h | h | h
    · rw [EReal.coe_mul_top_of_neg h, EReal.bot_add]
    · subst h; simp
    · rw [EReal.coe_mul_top_of_pos h, ← EReal.coe_mul, EReal.top_add_coe]

/-- Termwise: a sum of real multiples of `w k + a k`, the `a k` real, is the sum of the multiples of the `w k`
    plus the sum of the multiples of the `a k`. -/
theorem sum_mul_add {ι : Type*} (s : Finset ι) (x w a : ι → EReal)
    (hx : ∀ k, ∃ r : ℝ, x k = (r : EReal)) (ha : ∀ k, ∃ t : ℝ, a k = (t : EReal)) :
    ∑ k ∈ s, x k * (w k + a k) = ∑ k ∈ s, x k * w k + ∑ k ∈ s, x k * a k := by
  rw [← Finset.sum_add_distrib]
  refine Finset.sum_congr rfl fun k _ => ?_
  obtain ⟨r, hr⟩ := hx k
  obtain ⟨t, ht⟩ := ha k
  rw [hr, ht]
  exact coe_mul_add_coe r t (w k)

/-! ## A matrix product at an entry -/

/-- For a plain product of an N x D matrix with a D x H matrix (the first one's columns contracted with the second
    one's rows) the sum over the contraction index at entry (i, j) is the sum over k of l(i, k) r(k, j). -/
theorem contr_sum_rows {N D H : Nat} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![N, D]⟩ : Shape).Idx → EReal) (r : (⟨2, ![D, H]⟩ : Shape).Idx → EReal) (i : Fin N) (j : Fin H) :
    ∑ k : d.contr.Idx, l (d.lhsIdx (ix2 i j) k) * r (d.rhsIdx (ix2 i j) k) = ∑ k : Fin D, l (ix2 i k) * r (ix2 k j) := by
  obtain ⟨lc, rc, ln, rn, lb, rb, wf⟩ := d
  simp only at h1 h2 h3 h4 h5 h6
  subst h1 h2 h3 h4 h5 h6
  rw [← Equiv.sum_comp (contrEquiv1 (⟨[1], [0], [0], [1], [], [], wf⟩ : DotDims ⟨2, ![N, D]⟩ ⟨2, ![D, H]⟩ ⟨2, ![N, H]⟩) D rfl rfl).symm]
  refine Finset.sum_congr rfl fun k _ => ?_
  congr 1
  · refine congrArg l ?_
    funext a
    match a with
    | ⟨0, _⟩ => exact Fin.ext rfl
    | ⟨1, _⟩ => exact Fin.ext rfl
  · refine congrArg r ?_
    funext a
    match a with
    | ⟨0, _⟩ => exact Fin.ext rfl
    | ⟨1, _⟩ => exact Fin.ext rfl

/-- The matrix unit's product accumulated into the zero matrix, at entry (i, j). -/
theorem matmul_zero_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    matmul d prec l r (constant ⟨2, ![N, H]⟩ .f32 0x00000000#32) (ix2 i j) = ∑ k : Fin D, l (ix2 i k) * r (ix2 k j) := by
  simp only [matmul]
  rw [Ideal.matmul_constant_zero_apply]
  exact contr_sum_rows d h1 h2 h3 h4 h5 h6 l r i j

/-- The host's product, at entry (i, j). -/
theorem dotGeneral_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    Host.dotGeneral d prec l r (ix2 i j) = ∑ k : Fin D, l (ix2 i k) * r (ix2 k j) := by
  unfold Host.dotGeneral
  rw [Ideal.dotGeneral_apply]
  exact contr_sum_rows d h1 h2 h3 h4 h5 h6 l r i j

end Cert.Fold

end
-- ==== Proof.Layer1Value.lean ====
/-
  The first pallas_call's result array, as one function of the arrays the region finds.

  The region tiles the 100000 rows into 20 blocks of 5000. At grid point t the body holds rows 5000 t … 5000 t + 4999 of the
  left operand (a [5000, 16] block) and the whole [16, 128] right operand, and stores their matrix product, accumulated into
  zeros, as the [5000, 128] block it writes back to rows 5000 t … of the result. At the exact instance the two changes of
  float format are the identity and the product's entry (p, q) is the sum over k of left (p, k) · right (k, q). Entry
  (5000 t + p, q) of the whole product of the two arrays is the same sum over the same sixteen terms: a row of a matrix
  product depends on that row of the left factor only. So every block written back is its block of the whole product
  `dense1`, the twenty blocks cover the array, and the array ends holding `dense1` of the two operand arrays.
-/
import proofs.«163940_j42442866819845_1_alg».proof.Proof.Gen.KernelIdeal.Frame
import proofs.«163940_j42442866819845_1_alg».proof.Proof.GcnSpec
import proofs.«163940_j42442866819845_1_alg».proof.Proof.LibRealFactor
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q): the sum over k of left (p, k) · right (k, q). -/
theorem pay_apply (xb : Vec Ideal S5000x16 .f32) (wb : Vec Ideal S16x128 .f32) (p : Fin 5000) (q : Fin 128) :
    k0_pay1 xb wb (ix2 p q) = ∑ k : Fin 16, xb (ix2 p k) * wb (ix2 k q) := by
  unfold k0_pay1
  exact Cert.Fold.matmul_zero_rows dot_S5000x16_S16x128_S5000x128_1_0_0_1_n_n rfl rfl rfl rfl rfl rfl none _ _ p q

/-- The whole product at entry (r, q): the sum over k of x (r, k) · w (k, q). -/
theorem dense1_apply (x : (⟨Cert.ReferenceIdeal.S100000x16, .f32⟩ : BufTy).Contents (Elt Ideal))
    (w : (⟨Cert.ReferenceIdeal.S16x128, .f32⟩ : BufTy).Contents (Elt Ideal)) (r : Fin 100000) (q : Fin 128) :
    Cert.Gcn.dense1 (F := Ideal) x w (ix2 r q) = ∑ k : Fin 16, x (ix2 r k) * w (ix2 k q) := by
  unfold Cert.Gcn.dense1
  exact Cert.Fold.dotGeneral_rows _ rfl rfl rfl rfl rfl rfl none x w r q

/-- The printed index maps over the grid: the left operand's and the result's blocks move down one block per point,
    the right operand's stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000 t … of its array. -/
theorem xblk_apply (c : Dev nD) (t : Fin cfg0.N) (p : Fin 5000) (k : Fin 16) (r : Fin 100000) (hr : r.val = t.val * 5000 + p.val) :
    (iblk0 V c 0 t : Vec Ideal S5000x16 .f32) (ix2 p k) = (V c main_arg0 : S100000x16.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * p.val = r.val; rw [e0, hr]; omega
  | ⟨1, _⟩ => show win0_0.index t 1 * 16 + 1 * k.val = k.val; rw [e1]; omega

/-- The right operand's block at every point is its whole array. -/
theorem wblk_apply (c : Dev nD) (t : Fin cfg0.N) (k : Fin 16) (q : Fin 128) :
    (iblk0 V c 1 t : Vec Ideal S16x128 .f32) (ix2 k q) = (V c main_arg1 : S16x128.Idx → EReal) (ix2 k q) := by
  obtain ⟨-, -, e2, e3, -⟩ := idx_facts t
  unfold iblk0
  rw [View.read_apply]
  show V c main_arg1 _ = V c main_arg1 _
  congr 1
  funext a
  apply Fin.ext
  match a with
  | ⟨0, _⟩ => show win0_1.index t 0 * 16 + 1 * k.val = k.val; rw [e2]; omega
  | ⟨1, _⟩ => show win0_1.index t 1 * 128 + 1 * q.val = q.val; rw [e3]; omega

/-- What point t writes back is block t of the whole product of the two operand arrays. -/
theorem flushed_eq (c : Dev nD) (t : Fin cfg0.N) :
    (dat0 V c).flushed 2 t = ((cfg0.win 2).blk t).view.read (Elt Ideal) (Cert.Gcn.dense1 (F := Ideal) (V c main_arg0) (V c main_arg1)) := by
  show (cfg0.win 2).cut (grid0.coords t) ((dat0 V c).after 2 t) = _
  rw [after0_2]
  unfold out0_2
  rw [View.canon_unit_zero hz]
  simp only [View.ld_unit_zero (S := S5000x16) hz, View.ld_unit_zero (S := S16x128) hz]
  obtain ⟨-, -, -, -, e4, e5⟩ := idx_facts t
  have hN : cfg0.N = 20 := N_0
  funext j
  obtain ⟨p, q, rfl⟩ : ∃ (p : Fin 5000) (q : Fin 128), j = ix2 p q := ⟨j 0, j 1, eq_ix2 j⟩
  have hr : t.val * 5000 + p.val < 100000 := by have := t.isLt; have := p.isLt; omega
  have hemb : ((cfg0.win 2).blk t).view.emb (ix2 p q) = (ix2 (⟨t.val * 5000 + p.val, hr⟩ : Fin 100000) q : S100000x128.Idx) := by
    funext a
    apply Fin.ext
    match a with
    | ⟨0, _⟩ => show win0_2.index t 0 * 5000 + 1 * p.val = t.val * 5000 + p.val; rw [e4]; omega
    | ⟨1, _⟩ => show win0_2.index t 1 * 128 + 1 * q.val = q.val; rw [e5]; omega
  show k0_pay1 (iblk0 V c 0 t) (iblk0 V c 1 t) (ix2 p q) = Cert.Gcn.dense1 (F := Ideal) (V c main_arg0) (V c main_arg1) (((cfg0.win 2).blk t).view.emb (ix2 p q))
  rw [hemb]
  refine (pay_apply (iblk0 V c 0 t) (iblk0 V c 1 t) p q).trans ?_
  refine Eq.trans ?_ (dense1_apply (V c main_arg0) (V c main_arg1) ⟨t.val * 5000 + p.val, hr⟩ q).symm
  refine Finset.sum_congr rfl fun k _ => ?_
  rw [xblk_apply V c t p k ⟨t.val * 5000 + p.val, hr⟩ rfl, wblk_apply V c t k q]

/-- An index of the result array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the result lies in the block of point r / 5000: the twenty blocks cover the array. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ 1 * 128 ≤ (i 1).val ∧ (i 1).val < win0_2.index ⟨(i 0).val / 5000, ht⟩ 1 * 128 + 128
    rw [e5]; omega

/-- THE RESULT ARRAY after the region: the whole product of the two operand arrays as the region found them. -/
theorem final (c : Dev nD) :
    (dat0 V c).arrAt 2 cfg0.N = Cert.Gcn.dense1 (F := Ideal) (V c main_arg0) (V c main_arg1) :=
  (dat0 V c).arrAt_eq_of_cover 2 _ (fun t _ => flushed_eq V c t) covered

end Cert.KernelIdeal.Layer1

end
-- ==== Proof.Layer2Value.lean ====
/-
  The second pallas_call's result array, as one function of the arrays the region finds.

  The same tiling as the first: twenty blocks of 5000 rows. At grid point t the body holds rows 5000 t … of the left
  operand (now a [5000, 128] block of the rectified first layer, passed through a shape cast to its own shape) and the
  whole [128, 128] right operand, and writes back their matrix product accumulated into zeros. At the exact instance
  entry (p, q) of that block is the sum over the 128 values of k of left (p, k) · right (k, q), which is entry
  (5000 t + p, q) of the whole product `dense2` of the two arrays; the twenty blocks cover the result, which therefore
  ends holding `dense2` of the two operand arrays.
-/
import proofs.«163940_j42442866819845_1_alg».proof.Proof.Gen.KernelIdeal.Frame
import proofs.«163940_j42442866819845_1_alg».proof.Proof.GcnSpec
import proofs.«163940_j42442866819845_1_alg».proof.Proof.LibRealFactor
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q): the sum over k of left (p, k) · right (k, q); the cast of the left block
    to its own shape changes nothing. -/
theorem pay_apply (hb : Vec Ideal S5000x128 .f32) (wb : Vec Ideal S128x128 .f32) (p : Fin 5000) (q : Fin 128) :
    k1_pay1 hb wb (ix2 p q) = ∑ k : Fin 128, hb (ix2 p k) * wb (ix2 k q) := by
  unfold k1_pay1
  simp only [shapeCast_self]
  exact Cert.Fold.matmul_zero_rows dot_S5000x128_S128x128_S5000x128_1_0_0_1_n_n rfl rfl rfl rfl rfl rfl none _ _ p q

/-- The whole product at entry (r, q): the sum over k of h (r, k) · w (k, q). -/
theorem dense2_apply (h : (⟨Cert.ReferenceIdeal.S100000x128, .f32⟩ : BufTy).Contents (Elt Ideal))
    (w : (⟨Cert.ReferenceIdeal.S128x128, .f32⟩ : BufTy).Contents (Elt Ideal)) (r : Fin 100000) (q : Fin 128) :
    Cert.Gcn.dense2 (F := Ideal) h w (ix2 r q) = ∑ k : Fin 128, h (ix2 r k) * w (ix2 k q) := by
  unfold Cert.Gcn.dense2
  exact Cert.Fold.dotGeneral_rows _ rfl rfl rfl rfl rfl rfl none h w r q

/-- The printed index maps over the grid: the left operand's and the result's blocks move down one block per point,
    the right operand's stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 5000 t … of its array. -/
theorem hblk_apply (c : Dev nD) (t : Fin cfg1.N) (p : Fin 5000) (k : Fin 128) (r : Fin 100000) (hr : r.val = t.val * 5000 + p.val) :
    (iblk1 V c 0 t : Vec Ideal S5000x128 .f32) (ix2 p k) = (V c main_v47 : S100000x128.Idx → EReal) (ix2 r k) := by
  obtain ⟨e0, e1, -⟩ := idx_facts t
  unfold iblk1
  rw [View.read_apply]
  show V c main_v47 _ = V c main_v47 _
  congr 1
  funext a
  apply Fin.ext
  match a with
  | ⟨0, _⟩ => show win1_0.index t 0 * 5000 + 1 * p.val = r.val; rw [e0, hr]; omega
  | ⟨1, _⟩ => show win1_0.index t 1 * 128 + 1 * k.val = k.val; rw [e1]; omega

/-- The right operand's block at every point is its whole array. -/
theorem wblk_apply (c : Dev nD) (t : Fin cfg1.N) (k : Fin 128) (q : Fin 128) :
    (iblk1 V c 1 t : Vec Ideal S128x128 .f32) (ix2 k q) = (V c main_arg3 : S128x128.Idx → EReal) (ix2 k q) := by
  obtain ⟨-, -, e2, e3, -⟩ := idx_facts t
  unfold iblk1
  rw [View.read_apply]
  show V c main_arg3 _ = V c main_arg3 _
  congr 1
  funext a
  apply Fin.ext
  match a with
  | ⟨0, _⟩ => show win1_1.index t 0 * 128 + 1 * k.val = k.val; rw [e2]; omega
  | ⟨1, _⟩ => show win1_1.index t 1 * 128 + 1 * q.val = q.val; rw [e3]; omega

/-- What point t writes back is block t of the whole product of the two operand arrays. -/
theorem flushed_eq (c : Dev nD) (t : Fin cfg1.N) :
    (dat1 V c).flushed 2 t = ((cfg1.win 2).blk t).view.read (Elt Ideal) (Cert.Gcn.dense2 (F := Ideal) (V c main_v47) (V c main_arg3)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨-, -, -, -, e4, e5⟩ := idx_facts t
  have hN : cfg1.N = 20 := N_1
  funext j
  obtain ⟨p, q, rfl⟩ : ∃ (p : Fin 5000) (q : Fin 128), j = ix2 p q := ⟨j 0, j 1, eq_ix2 j⟩
  have hr : t.val * 5000 + p.val < 100000 := by have := t.isLt; have := p.isLt; omega
  have hemb : ((cfg1.win 2).blk t).view.emb (ix2 p q) = (ix2 (⟨t.val * 5000 + p.val, hr⟩ : Fin 100000) q : S100000x128.Idx) := by
    funext a
    apply Fin.ext
    match a with
    | ⟨0, _⟩ => show win1_2.index t 0 * 5000 + 1 * p.val = t.val * 5000 + p.val; rw [e4]; omega
    | ⟨1, _⟩ => show win1_2.index t 1 * 128 + 1 * q.val = q.val; rw [e5]; omega
  show k1_pay1 (iblk1 V c 0 t) (iblk1 V c 1 t) (ix2 p q) = Cert.Gcn.dense2 (F := Ideal) (V c main_v47) (V c main_arg3) (((cfg1.win 2).blk t).view.emb (ix2 p q))
  rw [hemb]
  refine (pay_apply (iblk1 V c 0 t) (iblk1 V c 1 t) p q).trans ?_
  refine Eq.trans ?_ (dense2_apply (V c main_v47) (V c main_arg3) ⟨t.val * 5000 + p.val, hr⟩ q).symm
  refine Finset.sum_congr rfl fun k _ => ?_
  rw [hblk_apply V c t p k ⟨t.val * 5000 + p.val, hr⟩ rfl, wblk_apply V c t k q]

/-- An index of the result array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Row r of the result lies in the block of point r / 5000: the twenty blocks cover the array. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have ht : (i 0).val / 5000 < cfg1.N := by omega
  obtain ⟨-, -, -, -, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ 0 * 5000 ≤ (i 0).val ∧ (i 0).val < win1_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ 1 * 128 ≤ (i 1).val ∧ (i 1).val < win1_2.index ⟨(i 0).val / 5000, ht⟩ 1 * 128 + 128
    rw [e5]; omega

/-- THE RESULT ARRAY after the region: the whole product of the two operand arrays as the region found them. -/
theorem final (c : Dev nD) :
    (dat1 V c).arrAt 2 cfg1.N = Cert.Gcn.dense2 (F := Ideal) (V c main_v47) (V c main_arg3) :=
  (dat1 V c).arrAt_eq_of_cover 2 _ (fun t _ => flushed_eq V c t) covered

end Cert.KernelIdeal.Layer2

end
-- ==== Proof.KernelValue.lean ====
/-
  The kernel program's result at the exact instance.

  At its exit each region has changed, among the buffers, its result array only, and that array holds the whole matrix
  product of the region's two operand arrays as it found them (Layer1Value, Layer2Value). So the buffer contents at a
  region's exit ARE the contents at its entry after one host operation writing that product: the run's fold through
  @main is the chain of KernelChain, and the result buffer ends at the two layers of the argument arrays.
-/
import proofs.«163940_j42442866819845_1_alg».proof.Proof.Gen.KernelIdeal.Frame
import proofs.«163940_j42442866819845_1_alg».proof.Proof.KernelChain
import proofs.«163940_j42442866819845_1_alg».proof.Proof.Layer1Value
import proofs.«163940_j42442866819845_1_alg».proof.Proof.Layer2Value

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- At each of the first region's three arrays, the exit contents are the entry contents after the product's operation:
    the two operands as entered, the result at the product. -/
theorem W4_at (c : Dev nD) : ∀ w : Fin 3, W4 m ρ c (Proc.devRef .tc (Pipeline.arrRef spec0 w))
      = (Chain.op30 (F := Ideal)).result (W3 m ρ c) (Proc.devRef .tc (Pipeline.arrRef spec0 w))
  | ⟨0, _⟩ => ((W4_arr m ρ c 0).trans (((dat0 (V3 m ρ) c).arrAt_in 0 rfl _).trans (A_eq0 (V3 m ρ) c 0))).trans
      (binary_result_ne _ _ _ _ _ _ _ (W3 m ρ c) (r := main_arg0) (by decide)).symm
  | ⟨1, _⟩ => ((W4_arr m ρ c 1).trans (((dat0 (V3 m ρ) c).arrAt_in 1 rfl _).trans (A_eq0 (V3 m ρ) c 1))).trans
      (binary_result_ne _ _ _ _ _ _ _ (W3 m ρ c) (r := main_arg1) (by decide)).symm
  | ⟨2, _⟩ => ((W4_arr m ρ c 2).trans (Layer1.final (V3 m ρ) c)).trans
      (binary_result main_arg0 main_arg1 main_v30 _ _ _ _ (W3 m ρ c)).symm
  | ⟨_ + 3, h⟩ => absurd h (Nat.not_lt.2 (Nat.le_add_left _ _))

/-- The first region acts on the buffer contents as the one host operation `Chain.op30`. -/
theorem W4_eq (c : Dev nD) : W4 m ρ c = after [Chain.op30 (F := Ideal)] (W3 m ρ c) := by
  funext b
  show W4 m ρ c b = (Chain.op30 (F := Ideal)).result (W3 m ρ c) b
  by_cases h : ∃ w, Proc.devRef .tc (Pipeline.arrRef spec0 w) = b
  · obtain ⟨w, rfl⟩ := h
    exact W4_at m ρ c w
  · rw [HloOp.result_of_not_mem _ _ (by rw [binary_writes, Finset.mem_singleton]; exact fun e => h ⟨2, e.symm⟩)]
    unfold W4 Pipeline.withArrays
    rw [dif_neg h]

/-- The same for the second region's three arrays. -/
theorem W7_at (c : Dev nD) : ∀ w : Fin 3, W7 m ρ c (Proc.devRef .tc (Pipeline.arrRef spec1 w))
      = (Chain.op48 (F := Ideal)).result (W6 m ρ c) (Proc.devRef .tc (Pipeline.arrRef spec1 w))
  | ⟨0, _⟩ => ((W7_arr m ρ c 0).trans (((dat1 (V6 m ρ) c).arrAt_in 0 rfl _).trans (A_eq1 (V6 m ρ) c 0))).trans
      (binary_result_ne _ _ _ _ _ _ _ (W6 m ρ c) (r := main_v47) (by decide)).symm
  | ⟨1, _⟩ => ((W7_arr m ρ c 1).trans (((dat1 (V6 m ρ) c).arrAt_in 1 rfl _).trans (A_eq1 (V6 m ρ) c 1))).trans
      (binary_result_ne _ _ _ _ _ _ _ (W6 m ρ c) (r := main_arg3) (by decide)).symm
  | ⟨2, _⟩ => ((W7_arr m ρ c 2).trans (Layer2.final (V6 m ρ) c)).trans
      (binary_result main_v47 main_arg3 main_v48 _ _ _ _ (W6 m ρ c)).symm
  | ⟨_ + 3, h⟩ => absurd h (Nat.not_lt.2 (Nat.le_add_left _ _))

/-- The second region acts on the buffer contents as the one host operation `Chain.op48`. -/
theorem W7_eq (c : Dev nD) : W7 m ρ c = after [Chain.op48 (F := Ideal)] (W6 m ρ c) := by
  funext b
  show W7 m ρ c b = (Chain.op48 (F := Ideal)).result (W6 m ρ c) b
  by_cases h : ∃ w, Proc.devRef .tc (Pipeline.arrRef spec1 w) = b
  · obtain ⟨w, rfl⟩ := h
    exact W7_at m ρ c w
  · rw [HloOp.result_of_not_mem _ _ (by rw [binary_writes, Finset.mem_singleton]; exact fun e => h ⟨2, e.symm⟩)]
    unfold W7 Pipeline.withArrays
    rw [dif_neg h]

/-- The run's last boundary is the chain folded from the launch contents. -/
theorem W8_eq (c : Dev nD) : W8 m ρ c = Chain.chain (F := Ideal) (W0 m ρ c) := by
  show after hostOps2 (W7 m ρ c) = _
  rw [W7_eq]
  show after hostOps2 (after [Chain.op48 (F := Ideal)] (after hostOps1_1 (after hostOps1 (W4 m ρ c)))) = _
  rw [W4_eq]
  rfl

/-- THE KERNEL PROGRAM'S RESULT: the two layers of the argument arrays as launched. -/
theorem result_eq (c : Dev nD) :
    W8 m ρ c (Proc.devRef .tc main_v64)
      = Cert.Gcn.layers (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [W8_eq, Chain.chain_result]

end Cert.KernelIdeal.Result

end
-- ==== Proof.lean ====
/-
  The certificate of a two-layer graph convolution (GCNConv twice, a rectifier between): the kernel program computes
  the two dense products x · W1 and h · W2 in pallas_calls tiled over the 100000 rows, twenty blocks of 5000, with the
  operands passed through bf16, and does the degree normalisation, the gather, the scatter-add and the bias on the
  host; the reference does everything on the host with `dot_general` for the products.

  At the exact instance a change of float format is the identity and a matrix product is the plain sum over the
  contracted index, so each pallas_call leaves in its result array the whole product of its operand arrays
  (Proof/Layer1Value, Proof/Layer2Value): block t of the result depends on rows 5000 t … of the left factor only, and
  the blocks tile the rows. Around the two products the two programs apply the same host operations to the same
  values, so both results are ONE function `Gcn.layers` of the argument arrays (Proof/GcnSpec): the kernel program's by
  folding its host stretches with each call stood in by its product (Proof/KernelChain, Proof/KernelValue), the
  reference's by reading its run's composed term (Proof/RefRun, Proof/RefIsSpec). No law of the extended reals is
  used beyond the sum's own definition, so the precondition is never opened.

  The three frames: the kernel program's two are generated; the reference's is its run with the result dropped. The
  ideal pass rewrote nothing, so `preserves` is `True`.
-/
import proofs.«163940_j42442866819845_1_alg».proof.Defs
import proofs.«163940_j42442866819845_1_alg».proof.Proof.Gen.Kernel
import proofs.«163940_j42442866819845_1_alg».proof.Proof.Gen.Kernel.Skeleton
import proofs.«163940_j42442866819845_1_alg».proof.Proof.Gen.Kernel.Launch
import proofs.«163940_j42442866819845_1_alg».proof.Proof.Gen.Kernel.Points
import proofs.«163940_j42442866819845_1_alg».proof.Proof.Gen.Kernel.Frame
import proofs.«163940_j42442866819845_1_alg».proof.Proof.Gen.KernelIdeal
import proofs.«163940_j42442866819845_1_alg».proof.Proof.Gen.KernelIdeal.Skeleton
import proofs.«163940_j42442866819845_1_alg».proof.Proof.Gen.KernelIdeal.Launch
import proofs.«163940_j42442866819845_1_alg».proof.Proof.Gen.KernelIdeal.Points
import proofs.«163940_j42442866819845_1_alg».proof.Proof.Gen.KernelIdeal.Frame
import proofs.«163940_j42442866819845_1_alg».proof.Proof.Gen.ReferenceIdeal
import proofs.«163940_j42442866819845_1_alg».proof.Proof.Gen.Pre_finite_inputs
import proofs.«163940_j42442866819845_1_alg».proof.Proof.RefRun
import proofs.«163940_j42442866819845_1_alg».proof.Proof.RefIsSpec
import proofs.«163940_j42442866819845_1_alg».proof.Proof.KernelRun
import proofs.«163940_j42442866819845_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run, the statement about the result dropped. -/
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- From memories agreeing on the arguments both programs end with the two layers of those arguments in their
    result buffers: the kernel program's run names its result as the fold `W8`, which is `Gcn.layers` of its
    arguments; the reference's run names its composed term, which is `Gcn.layers` of its arguments. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.GenP.run_result (F := Ideal) m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5⟩ := hagree c
  rw [Cert.ReferenceIdeal.RefSpec.res_eq, h0, h1, h2, h3, h4, h5]
  exact (Cert.KernelIdeal.Result.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
